-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S4096x2048 : Shape := ⟨2, ![4096, 2048]⟩
abbrev S4096 : Shape := ⟨1, ![4096]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x2048 .f32) (main_arg1 : FVec F S4096x2048 .f32) (main_arg2 : FVec F S4096 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x2048 : Shape := ⟨2, ![8192, 2048]⟩
abbrev S4096x2048 : Shape := ⟨2, ![4096, 2048]⟩
abbrev S4096 : Shape := ⟨1, ![4096]⟩
abbrev S1x4096 : Shape := ⟨2, ![1, 4096]⟩
abbrev S8192x4096 : Shape := ⟨2, ![8192, 4096]⟩
abbrev S2048x512 : Shape := ⟨2, ![2048, 512]⟩
abbrev S128x512 : Shape := ⟨2, ![128, 512]⟩
abbrev S1x128 : Shape := ⟨2, ![1, 128]⟩
abbrev S2048x128 : Shape := ⟨2, ![2048, 128]⟩
abbrev S2048 : Shape := ⟨1, ![2048]⟩
abbrev S2048x1 : Shape := ⟨2, ![2048, 1]⟩

abbrev nBuf : Space → Nat
  | .hbm => 5
  | .vmem => 9
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S128x512, .f32⟩
  | .local _ .vmem, ⟨3, _⟩ => ⟨S128x512, .f32⟩
  | .local _ .vmem, ⟨4, _⟩ => ⟨S1x128, .f32⟩
  | .local _ .vmem, ⟨5, _⟩ => ⟨S1x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 32, 4], ![false, false, false]⟩

def k0_cond2 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x128_S2048x128_0_0 : ∀ a, (![0, 0] : Fin 2 → Nat) a + S2048x128.size a ≤ S2048x128.size a
  h_S2048x128 : 0 < S2048x128.numel
  shapeCasts_S2048x128_S2048x128 : S2048x128.ShapeCasts S2048x128
  inb_S2048x512_S2048x512_0_0 : ∀ a, (![0, 0] : Fin 2 → Nat) a + S2048x512.size a ≤ S2048x512.size a
  h_S2048x512 : 0 < S2048x512.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  reduces_S2048x128_S2048 : S2048x128.Reduces [1] S2048
  shapeCasts_S2048_S2048x1 : S2048.ShapeCasts S2048x1
  broadcasts_S2048x1_S2048x128 : S2048x1.Broadcasts S2048x128
  dot_S2048x512_S128x512_S2048x128_1_1_0_0_n_n_wf : DotDims.WF S2048x512 S128x512 S2048x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x2048.size a
  hwx0_0 : ∀ i : grid0.Coords, EltTy.bits .f32 = 32 ∨ (Rect.block (s := S8192x2048) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S4096x2048.size a
  hwx0_1 : ∀ i : grid0.Coords, EltTy.bits .f32 = 32 ∨ (Rect.block (s := S4096x2048) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x4096.size a
  hwx0_2 : ∀ i : grid0.Coords, EltTy.bits .f32 = 32 ∨ (Rect.block (s := S1x4096) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x128.size a ≤ S8192x4096.size a
  hwx0_3 : ∀ i : grid0.Coords, EltTy.bits .f32 = 32 ∨ (Rect.block (s := S8192x4096) S2048x128.size (cc0_transform_3 i) (hinb0_3 i)).WholeWords (EltTy.packing .f32)

variable [Facts₀]

def dot_S2048x512_S128x512_S2048x128_1_1_0_0_n_n : DotDims S2048x512 S128x512 S2048x128 where
  lhsContracting := [1]
  rhsContracting := [1]
  lhsNonContracting := [0]
  rhsNonContracting := [0]
  lhsBatch := []
  rhsBatch := []
  wf := dot_S2048x512_S128x512_S2048x128_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x2048 : Shape := ⟨2, ![8192, 2048]⟩
abbrev S4096x2048 : Shape := ⟨2, ![4096, 2048]⟩
abbrev S4096 : Shape := ⟨1, ![4096]⟩
abbrev S8192x4096 : Shape := ⟨2, ![8192, 4096]⟩
abbrev S1x4096 : Shape := ⟨2, ![1, 4096]⟩
abbrev S8192x32x128 : Shape := ⟨3, ![8192, 32, 128]⟩
abbrev S_ : Shape := ⟨0, ![]⟩
abbrev S8192x32 : Shape := ⟨2, ![8192, 32]⟩
abbrev S8192x32x1 : Shape := ⟨3, ![8192, 32, 1]⟩

abbrev nBuf : Space → Nat
  | .hbm => 40
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S4096x2048, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S8192x32x128, .f32⟩
  | .hbm, ⟨8, _⟩ => ⟨S_, .f32⟩
  | .hbm, ⟨9, _⟩ => ⟨S8192x32, .f32⟩
  | .hbm, ⟨10, _⟩ => ⟨S8192x32x1, .f32⟩
  | .hbm, ⟨11, _⟩ => ⟨S_, .f32⟩
  | .hbm, ⟨12, _⟩ => ⟨S8192x32x1, .f32⟩
  | .hbm, ⟨13, _⟩ => ⟨S8192x32x1, .f32⟩
  | .hbm, ⟨14, _⟩ => ⟨S8192x32x128, .f32⟩
  | .hbm, ⟨15, _⟩ => ⟨S8192x32x128, .f32⟩
  | .hbm, ⟨16, _⟩ => ⟨S8192x32x128, .f32⟩
  | .hbm, ⟨17, _⟩ => ⟨S_, .f32⟩
  | .hbm, ⟨18, _⟩ => ⟨S8192x32, .f32⟩
  | .hbm, ⟨19, _⟩ => ⟨S8192x32x1, .f32⟩
  | .hbm, ⟨20, _⟩ => ⟨S_, .f32⟩
  | .hbm, ⟨21, _⟩ => ⟨S8192x32x1, .f32⟩
  | .hbm, ⟨22, _⟩ => ⟨S8192x32x1, .f32⟩
  | .hbm, ⟨23, _⟩ => ⟨S8192x32x128, .f32⟩
  | .hbm, ⟨24, _⟩ => ⟨S8192x32x128, .f32⟩
  | .hbm, ⟨25, _⟩ => ⟨S_, .f32⟩
  | .hbm, ⟨26, _⟩ => ⟨S8192x32x1, .f32⟩
  | .hbm, ⟨27, _⟩ => ⟨S8192x32x1, .f32⟩
  | .hbm, ⟨28, _⟩ => ⟨S8192x32x1, .f32⟩
  | .hbm, ⟨29, _⟩ => ⟨S8192x32x128, .f32⟩
  | .hbm, ⟨30, _⟩ => ⟨S8192x32x128, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S8192x32x128, .f32⟩
  | .hbm, ⟨35, _⟩ => ⟨S8192x32x128, .f32⟩
  | .hbm, ⟨36, _⟩ => ⟨S_, .f32⟩
  | .hbm, ⟨37, _⟩ => ⟨S8192x32x128, .f32⟩
  | .hbm, ⟨38, _⟩ => ⟨S8192x32x128, .f32⟩
  | .hbm, ⟨39, _⟩ => ⟨S8192x4096, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst_4 : Ref sig .tc := ⟨.hbm, 31, rfl⟩
abbrev main_cst_5 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  shapeCasts_S8192x4096_S8192x32x128 : S8192x4096.ShapeCasts S8192x32x128
  reducesTo_S8192x32x128_S8192x32_d2 : S8192x32x128.ReducesTo [2] S8192x32
  h_S_ : 0 < S_.numel
  bcast_S8192x32_S8192x32x1_0_1 : S8192x32.BroadcastsInDim S8192x32x1 (![0, 1] : Fin 2 → Fin S8192x32x1.rank)
  bcast_S_S8192x32x1 : S_.BroadcastsInDim S8192x32x1 (![] : Fin 0 → Fin S8192x32x1.rank)
  bcast_S8192x32x1_S8192x32x128_0_1_2 : S8192x32x1.BroadcastsInDim S8192x32x128 (![0, 1, 2] : Fin 3 → Fin S8192x32x128.rank)
  bcast_S_S8192x32x128 : S_.BroadcastsInDim S8192x32x128 (![] : Fin 0 → Fin S8192x32x128.rank)
  shapeCasts_S8192x32x128_S8192x4096 : S8192x32x128.ShapeCasts S8192x4096
  dot_S8192x2048_S4096x2048_S8192x4096_1_1_0_0_n_n_wf : DotDims.WF S8192x2048 S4096x2048 S8192x4096 [1] [1] [0] [0] [] []

variable [Facts₀]

def dot_S8192x2048_S4096x2048_S8192x4096_1_1_0_0_n_n : DotDims S8192x2048 S4096x2048 S8192x4096 where
  lhsContracting := [1]
  rhsContracting := [1]
  lhsNonContracting := [0]
  rhsNonContracting := [0]
  lhsBatch := []
  rhsBatch := []
  wf := dot_S8192x2048_S4096x2048_S8192x4096_1_1_0_0_n_n_wf

class Facts : Prop extends Facts₀ where

variable [Facts]
-- ==== Proof.Pieces.lean ====
/-
  What one grid step leaves behind, as pure values of what it loaded.

  The output tile of rows `2048·i … 2048·i + 2047` and channels `128·j … 128·j + 127` is computed in four steps over the
  contraction axis (`k = 0 … 3`, 512 columns each).  A 2048 × 128 accumulator is carried from step to step:
    * at `k = 0` it is set to zero and then the first partial product is added;
    * at `k = 1, 2` the step's partial product is added to what it held;
    * at `k = 3` the same, and then the output tile is stored: the accumulator plus the bias row, normalised over
      its 128 channels and clipped.
  Each lemma reads the stores the step made back as the corresponding arithmetic term of the step's loads.
-/
import proofs.«102504_j73315091744897_1_alg».proof.Proof.Gen.KernelIdeal.Frame
import Idealize.ShloMosaic.Lib.Pipeline.Value
import Idealize.ShloMosaic.Lib.Tactic

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

theorem hz : (![0, 0] : Fin 2 → Nat) = fun _ => 0 := funext fun a => by fin_cases a <;> rfl

/-- At a middle step of the contraction (not the first block of `k`, not the last) the accumulator is left at what it
    held plus this step's partial product. -/
theorem sout_B (c : Dev nD) (i : grid0.Coords) (arg3 : Memref sig .tc .vmem S2048x512 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond0_0 i) (hc1 : ¬cond0_1 i)
    (x0 : Vec F S2048x512 .f32) (x1 : Vec F S128x512 .f32) (x2 : Vec F S1x128 .f32) (xs0 : Vec F S2048x128 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero hz]
  simp only [View.readAt_eq_ld, harg3.read_unread, harg4.read_unread, harg7.read_unread,
    View.ld_unit_zero (S := S2048x512) hz, View.ld_unit_zero (S := S128x512) hz, View.ld_unit_zero (S := S2048x128) hz]

/-- At the last step the accumulator is updated the same way (the normalised tile is then stored beside it). -/
theorem sout_C (c : Dev nD) (i : grid0.Coords) (arg3 : Memref sig .tc .vmem S2048x512 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond0_0 i) (hc1 : cond0_1 i)
    (x0 : Vec F S2048x512 .f32) (x1 : Vec F S128x512 .f32) (x2 : Vec F S1x128 .f32) (xs0 : Vec F S2048x128 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero hz]
  simp only [View.readAt_eq_ld, harg3.read_unread, harg4.read_unread, harg7.read_unread,
    View.ld_unit_zero (S := S2048x512) hz, View.ld_unit_zero (S := S128x512) hz, View.ld_unit_zero (S := S2048x128) hz]

/-- At the first step the accumulator is first set to zero and then updated: it is left at zero plus the first
    partial product, whatever it held. -/
theorem sout_A (c : Dev nD) (i : grid0.Coords) (arg3 : Memref sig .tc .vmem S2048x512 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : cond0_0 i) (hc1 : ¬cond0_1 i)
    (x0 : Vec F S2048x512 .f32) (x1 : Vec F S128x512 .f32) (x2 : Vec F S1x128 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x128) hz, View.readCov_unit_zero (S := S2048x128) _ hz]
  simp only [View.readAt_eq_ld, harg3.read_unread, harg4.read_unread,
    View.ld_unit_zero (S := S2048x512) hz, View.ld_unit_zero (S := S128x512) hz, View.ld_unit_zero (S := S2048x128) hz]

/-- At the last step the output tile is the normalisation of the finished accumulator (this step's update included)
    with the bias row. -/
theorem out_C (c : Dev nD) (i : grid0.Coords) (arg3 : Memref sig .tc .vmem S2048x512 .f32) (harg3 : arg3.IsWhole) (arg4 : Memref sig .tc .vmem S128x512 .f32) (harg4 : arg4.IsWhole) (arg5 : Memref sig .tc .vmem S1x128 .f32) (harg5 : arg5.IsWhole) (arg6 : Memref sig .tc .vmem S2048x128 .f32) (harg6 : arg6.IsWhole) (arg7 : Memref sig .tc .vmem S2048x128 .f32) (harg7 : arg7.IsWhole) (hc0 : ¬cond0_0 i) (hc1 : cond0_1 i)
    (x0 : Vec F S2048x512 .f32) (x1 : Vec F S128x512 .f32) (x2 : Vec F S1x128 .f32) (xs0 : Vec F S2048x128 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero hz]
  simp only [View.readCov_unit_zero (S := S2048x128) _ hz, View.readAt_eq_ld, harg3.read_unread, harg4.read_unread,
    harg5.read_unread, harg7.read_unread, View.ld_unit_zero (S := S2048x512) hz, View.ld_unit_zero (S := S128x512) hz,
    View.ld_unit_zero (S := S2048x128) hz, View.ld_unit_zero (S := S1x128) hz]

end Cert.KernelIdeal.Pieces

end
-- ==== Proof.RowNorm.lean ====
/-
  The scalar algebra of one normalisation group, on the extended reals.

  A group is 128 numbers `y l`.  Its mean is `(∑ l, y l) / 128`, its (biased) variance the mean of the squared
  deviations, and each entry is normalised to `(y l - mean) · (var + ε)^(-1/2)`, then clipped to `[-1, 1]`.
  One program spells the scale as a product with the reciprocal square root, the other as a quotient by the
  square root.  The two agree whenever `var + ε` is strictly positive (`+∞` included): at a positive real both
  are the product with `1 / √v`, and at `+∞` both are `0`.  Positivity needs no finiteness of `y`: a square is
  never negative on the extended reals (`(-∞)·(-∞) = +∞`), so the sum of squares is `≥ 0`, dividing by `128`
  keeps the sign, and `ε` is a positive real.
-/
import Idealize.ShloMosaic.PureOps.Ideal
import Idealize.ShloMosaic.PureOps.Ideal.Laws

noncomputable section

namespace Cert.RowNorm

open Idealize.ShloMosaic

/-- The divisor `128.0` denotes the real `128`. -/
theorem ofBits_128 : Ideal.ofBits .f32 0x43000000#32 = ((128 : ℝ) : EReal) := by
  simp [Ideal.ofBits, Ideal.ieee, -EReal.coe_mul]; norm_num

/-- The stabiliser `ε` (the float nearest `1e-5`) denotes the real `10995116 / 2^40`. -/
theorem ofBits_eps : Ideal.ofBits .f32 0x3727C5AC#32 = ((10995116 / 2 ^ 40 : ℝ) : EReal) := by
  simp [Ideal.ofBits, Ideal.ieee, -EReal.coe_mul]; norm_num

/-- A square is never negative on the extended reals. -/
theorem mul_self_nonneg_ereal (d : EReal) : 0 ≤ d * d := by
  induction d using EReal.rec with
  | bot => simp
  | top => simp
  | coe r => rw [← EReal.coe_mul]; exact_mod_cast _root_.mul_self_nonneg r

/-- At a strictly positive radicand the product with the reciprocal square root is the quotient by the square
    root: at a positive real both are the product with `1 / √v`; at `+∞` both are `0`. -/
theorem mul_rsqrt_eq_div_sqrt (d v : EReal) (hv : 0 < v) : d * Ideal.rsqrt v = Ideal.div d (Ideal.sqrt v) := by
  induction v using EReal.rec with
  | bot => exact absurd hv (by simp)
  | top => simp [Ideal.div]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le),
      Ideal.div_coe hs, one_div]

/-- A non-negative sum of squares divided by `128`, plus `ε`, is strictly positive. -/
theorem div128_add_eps_pos (s : EReal) (hs : 0 ≤ s) :
    0 < Ideal.div s (Ideal.ofBits .f32 0x43000000#32) + Ideal.ofBits .f32 0x3727C5AC#32 := by
  rw [ofBits_128, ofBits_eps, Ideal.div_coe (by norm_num : (128 : ℝ) ≠ 0)]
  have h1 : (0 : EReal) ≤ s * ((1 / 128 : ℝ) : EReal) :=
    mul_nonneg hs (by exact_mod_cast (by norm_num : (0 : ℝ) ≤ 1 / 128))
  have h2 : (0 : EReal) < ((10995116 / 2 ^ 40 : ℝ) : EReal) := by
    exact_mod_cast (by norm_num : (0 : ℝ) < 10995116 / 2 ^ 40)
  exact h2.trans_le (le_add_of_nonneg_left h1)

/-- The group's mean: the sum of its 128 entries over `128`. -/
def mean (y : Fin 128 → EReal) : EReal := Ideal.div (∑ l, y l) (Ideal.ofBits .f32 0x43000000#32)

/-- The group's biased variance: the mean of the squared deviations from the mean. -/
def var (y : Fin 128 → EReal) : EReal :=
  Ideal.div (∑ l, (y l - mean y) * (y l - mean y)) (Ideal.ofBits .f32 0x43000000#32)

/-- The radicand `var + ε` is strictly positive, whatever the entries. -/
theorem var_add_eps_pos (y : Fin 128 → EReal) : 0 < var y + Ideal.ofBits .f32 0x3727C5AC#32 :=
  div128_add_eps_pos _ (Finset.sum_nonneg fun l _ => mul_self_nonneg_ereal _)

/-- Entry `l` normalised by a QUOTIENT by the square root, clipped to `[-1, 1]`. -/
def clipDiv (y : Fin 128 → EReal) (l : Fin 128) : EReal :=
  min (Ideal.ofBits .f32 0x3F800000#32) (max (Ideal.ofBits .f32 0xBF800000#32)
    (Ideal.div (y l - mean y) (Ideal.sqrt (var y + Ideal.ofBits .f32 0x3727C5AC#32))))

/-- Entry `l` normalised by a PRODUCT with the reciprocal square root, clipped to `[-1, 1]`. -/
def clipMul (y : Fin 128 → EReal) (l : Fin 128) : EReal :=
  min (Ideal.ofBits .f32 0x3F800000#32) (max (Ideal.ofBits .f32 0xBF800000#32)
    ((y l - mean y) * Ideal.rsqrt (var y + Ideal.ofBits .f32 0x3727C5AC#32)))

/-- The two spellings are one function. -/
theorem clipMul_eq_clipDiv (y : Fin 128 → EReal) (l : Fin 128) : clipMul y l = clipDiv y l := by
  unfold clipMul clipDiv
  rw [mul_rsqrt_eq_div_sqrt _ _ (var_add_eps_pos y)]

end Cert.RowNorm

end
-- ==== Proof.Payload.lean ====
/-
  The three arithmetic terms a grid step stores, read at one entry `(p, q)` of the 2048 × 128 tile, on the extended reals
  (where a change of float format is the identity and every operation is exact):
    * the reset stores `0`;
    * the accumulate step stores `acc[p,q] + ∑ k < 512, xblk[p,k] · wblk[q,k]` (a matrix product into a zero accumulator is
      the plain sum of products);
    * the last step stores, with `y l = acc[p,l] + bias[l]` the row's 128 linear outputs, the value
      `clip((y q - mean y) · rsqrt(var y + ε))`: the lane sums are sums over `l`, the keep-dims columns and their
      broadcasts read the row's one entry.
-/
import proofs.«102504_j73315091744897_1_alg».proof.Proof.Gen.KernelIdeal.Skeleton
import proofs.«102504_j73315091744897_1_alg».proof.Proof.RowNorm
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Payload

open Cert.KernelIdeal Cert.KernelIdeal.Gen Idealize.ShloMosaic Idealize.ShloMosaic.ValueIdx

/-- The zero tile. -/
theorem pay1_apply (j : S2048x128.Idx) : k0_pay1 (F := Ideal) j = 0 := by
  unfold k0_pay1
  rw [shapeCast_self]
  show Ideal.ofBits .f32 0x00000000#32 = 0
  exact Ideal.ofBits_zero_f32

theorem lhs_0 (i : S2048x128.Idx) (q : dot_S2048x512_S128x512_S2048x128_1_1_0_0_n_n.contr.Idx) :
    (dot_S2048x512_S128x512_S2048x128_1_1_0_0_n_n.lhsIdx i q 0).val = (i 0).val := by
  unfold DotDims.lhsIdx
  rw [dif_neg (show ¬(0 : Fin S2048x512.rank) ∈ dot_S2048x512_S128x512_S2048x128_1_1_0_0_n_n.lhsBatch by decide), dif_pos (show (0 : Fin S2048x512.rank) ∈ dot_S2048x512_S128x512_S2048x128_1_1_0_0_n_n.lhsNonContracting by decide)]
  rfl
theorem lhs_1 (i : S2048x128.Idx) (q : dot_S2048x512_S128x512_S2048x128_1_1_0_0_n_n.contr.Idx) :
    (dot_S2048x512_S128x512_S2048x128_1_1_0_0_n_n.lhsIdx i q 1).val = (q ⟨0, by decide⟩).val :=
  dot_S2048x512_S128x512_S2048x128_1_1_0_0_n_n.lhsIdx_val_of_single rfl i q
theorem rhs_0 (i : S2048x128.Idx) (q : dot_S2048x512_S128x512_S2048x128_1_1_0_0_n_n.contr.Idx) :
    (dot_S2048x512_S128x512_S2048x128_1_1_0_0_n_n.rhsIdx i q 0).val = (i 1).val := by
  unfold DotDims.rhsIdx
  rw [dif_neg (show ¬(0 : Fin S128x512.rank) ∈ dot_S2048x512_S128x512_S2048x128_1_1_0_0_n_n.rhsBatch by decide), dif_pos (show (0 : Fin S128x512.rank) ∈ dot_S2048x512_S128x512_S2048x128_1_1_0_0_n_n.rhsNonContracting by decide)]
  rfl
theorem rhs_1 (i : S2048x128.Idx) (q : dot_S2048x512_S128x512_S2048x128_1_1_0_0_n_n.contr.Idx) :
    (dot_S2048x512_S128x512_S2048x128_1_1_0_0_n_n.rhsIdx i q 1).val = (q ⟨0, by decide⟩).val :=
  dot_S2048x512_S128x512_S2048x128_1_1_0_0_n_n.rhsIdx_val_of_single rfl i q

/-- The accumulate step at entry `(p, q)`: what the accumulator held there plus the 512-term dot product of row `p` of the
    `x` block with row `q` of the `w` block. -/
theorem pay2_apply (xb : Vec Ideal S2048x512 .f32) (wb : Vec Ideal S128x512 .f32) (acc : Vec Ideal S2048x128 .f32)
    (p : Fin 2048) (q : Fin 128) :
    k0_pay2 xb wb acc (ix2 p q) = acc (ix2 p q) + ∑ k : Fin 512, xb (ix2 p k) * wb (ix2 q k) := by
  unfold k0_pay2
  rw [shapeCast_self]
  rw [addf_apply]
  refine congrArg (acc (ix2 p q) + ·) ?_
  simp only [matmul]
  rw [Ideal.matmul_constant_zero_apply, ← Equiv.sum_comp (contrEquiv1 dot_S2048x512_S128x512_S2048x128_1_1_0_0_n_n 512 rfl rfl).symm]
  refine Finset.sum_congr rfl fun k _ => ?_
  have hk := contrEquiv1_symm_val dot_S2048x512_S128x512_S2048x128_1_1_0_0_n_n 512 rfl rfl k
  have el : dot_S2048x512_S128x512_S2048x128_1_1_0_0_n_n.lhsIdx (ix2 p q) ((contrEquiv1 dot_S2048x512_S128x512_S2048x128_1_1_0_0_n_n 512 rfl rfl).symm k) = ix2 p k := funext fun a => Fin.ext (by
    match a with
    | ⟨0, _⟩ => exact lhs_0 _ _
    | ⟨1, _⟩ => exact (lhs_1 _ _).trans hk)
  have er : dot_S2048x512_S128x512_S2048x128_1_1_0_0_n_n.rhsIdx (ix2 p q) ((contrEquiv1 dot_S2048x512_S128x512_S2048x128_1_1_0_0_n_n 512 rfl rfl).symm k) = ix2 q k := funext fun a => Fin.ext (by
    match a with
    | ⟨0, _⟩ => exact rhs_0 _ _
    | ⟨1, _⟩ => exact (rhs_1 _ _).trans hk)
  rw [el, er]
  rfl

/-! ### Layout operations of the normalisation, read at an index -/

/-- A length-2048 vector cast to a 2048 × 1 column reads, at `(p, 0)`, the vector at `p`. -/
theorem col_cast_apply (v : FVec Ideal S2048 .f32) (h : S2048.ShapeCasts S2048x1) (p : Fin 2048) :
    shapeCast S2048x1 v h (ix2 p (0 : Fin 1)) = v (ix1 p) := by
  refine shapeCast_apply v h (ix2 p (0 : Fin 1)) (ix1 p) ?_
  rw [Shape.rowMajor_val_one, Shape.rowMajor_val_two]
  show p.val = p.val * 1 + 0
  omega

/-- A 2048 × 1 column broadcast to 2048 × 128 reads, at `(p, q)`, the column at `(p, 0)`. -/
theorem col_bcast_apply (v : FVec Ideal S2048x1 .f32) (h : S2048x1.Broadcasts S2048x128) (p : Fin 2048) (q : Fin 128) :
    broadcastTo S2048x128 v h (ix2 p q) = v (ix2 p (0 : Fin 1)) := by
  refine broadcastTo_apply v h (ix2 p q) (ix2 p (0 : Fin 1)) fun ax => ?_
  match ax with
  | ⟨0, _⟩ => rfl
  | ⟨1, _⟩ => rfl

/-- A 1 × 128 row broadcast to 2048 × 128 reads, at `(p, q)`, the row at `(0, q)`. -/
theorem row_bcast_apply (v : FVec Ideal S1x128 .f32) (h : S1x128.Broadcasts S2048x128) (p : Fin 2048) (q : Fin 128) :
    broadcastTo S2048x128 v h (ix2 p q) = v (ix2 (0 : Fin 1) q) :=
  broadcastTo_1b_ab_apply v h p q

/-- The sum over the 128 channels of a tile, at row `p`. -/
theorem rowsum_apply (v : FVec Ideal S2048x128 .f32) (hφ : FKind.Formats .f32)
    (hacc : (0x00000000#32 : BitVec 32) = 0x00000000#32) (p : Fin 2048) :
    multiReduction .add [1] S2048 v 0x00000000#32 reduces_S2048x128_S2048 hφ hacc (ix1 p) = ∑ l : Fin 128, v (ix2 p l) := by
  refine (Ideal.multiReduction_add_single v 0x00000000#32 reduces_S2048x128_S2048 hφ hacc (ix1 p)).trans ?_
  refine Finset.sum_congr rfl fun l _ => congrArg v (funext fun a => Fin.ext ?_)
  match a with
  | ⟨0, _⟩ => rfl
  | ⟨1, _⟩ => rfl

theorem rsqrt_apply (v : FVec Ideal S2048x1 .f32) (i : S2048x1.Idx) : rsqrt v i = Ideal.rsqrt (v i) := rfl

/-- The output tile at entry `(p, q)`: the row's 128 values `acc[p, l] + bias[l]`, normalised and clipped, at lane `q`. -/
theorem pay3_apply (acc : Vec Ideal S2048x128 .f32) (bias : Vec Ideal S1x128 .f32) (p : Fin 2048) (q : Fin 128) :
    k0_pay3 acc bias (ix2 p q) = Cert.RowNorm.clipMul (fun l => acc (ix2 p l) + bias (ix2 (0 : Fin 1) l)) q := by
  unfold k0_pay3
  repeat (first
    | rw [rowsum_apply]
    | simp only [shapeCast_self, minimumf_apply, maximumf_apply, mulf_apply, subf_apply, addf_apply, divf_apply,
        broadcast_apply, col_bcast_apply, row_bcast_apply, rsqrt_apply, col_cast_apply, Ideal.ofBits_def])
  rfl

end Cert.KernelIdeal.Payload

end
-- ==== Proof.Spec.lean ====
/-
  What both programs compute, as ONE function of the three argument arrays, index by index, on the extended reals.

  `x` is 8192 × 2048, `w` is 4096 × 2048, `b` has 4096 entries.  The linear layer is
  `lin r o = (∑ k, x[r,k] · w[o,k]) + b[o]`.  The 4096 output channels fall into 32 groups of 128 consecutive ones:
  channel `128·g + l` is lane `l` of group `g`.  Each row `r` is normalised group by group (`RowNorm.clipDiv`: subtract
  the group's mean, divide by the square root of its variance plus `ε`, clip to `[-1, 1]`), and the result at
  `(r, o)` is the normalised lane `o % 128` of group `o / 128`.
-/
import proofs.«102504_j73315091744897_1_alg».proof.Proof.RowNorm
import Idealize.ShloMosaic.Lib.ValueIdx

noncomputable section

namespace Cert.Spec

open Idealize.ShloMosaic Idealize.ShloMosaic.ValueIdx

abbrev SX : Shape := ⟨2, ![8192, 2048]⟩
abbrev SW : Shape := ⟨2, ![4096, 2048]⟩
abbrev SB : Shape := ⟨1, ![4096]⟩
abbrev SO : Shape := ⟨2, ![8192, 4096]⟩

/-- Lane `l` of group `g` is channel `128·g + l`. -/
def chan (g : Fin 32) (l : Fin 128) : Fin 4096 := ⟨128 * g.val + l.val, by have := g.isLt; have := l.isLt; omega⟩

theorem chan_val (g : Fin 32) (l : Fin 128) : (chan g l).val = 128 * g.val + l.val := rfl

/-- The linear layer at row `r`, channel `o`: the dot product of row `r` of `x` with row `o` of `w`, plus the bias. -/
def lin (x : SX.Idx → EReal) (w : SW.Idx → EReal) (b : SB.Idx → EReal) (r : Fin 8192) (o : Fin 4096) : EReal :=
  (∑ k : Fin 2048, x (ix2 r k) * w (ix2 o k)) + b (ix1 o)

/-- The result at row `r`, group `g`, lane `l`: the group's 128 linear outputs, normalised and clipped, at lane `l`. -/
def out3 (x : SX.Idx → EReal) (w : SW.Idx → EReal) (b : SB.Idx → EReal) (r : Fin 8192) (g : Fin 32) (l : Fin 128) : EReal :=
  RowNorm.clipDiv (fun l' => lin x w b r (chan g l')) l

/-- The whole result array: entry `(r, o)` is lane `o % 128` of group `o / 128` of row `r`. -/
def G (x : SX.Idx → EReal) (w : SW.Idx → EReal) (b : SB.Idx → EReal) : SO.Idx → EReal := fun i =>
  out3 x w b ⟨(i 0).val, idx2_lt0 i⟩ ⟨(i 1).val / 128, by have := idx2_lt1 i; omega⟩
    ⟨(i 1).val % 128, Nat.mod_lt _ (by decide)⟩

/-- `G` at the entry of row `r`, group `g`, lane `l`. -/
theorem G_apply (x : SX.Idx → EReal) (w : SW.Idx → EReal) (b : SB.Idx → EReal) (r : Fin 8192) (g : Fin 32) (l : Fin 128) :
    G x w b (ix2 r (chan g l)) = out3 x w b r g l := by
  unfold G
  have hg : (⟨((ix2 r (chan g l) : SO.Idx) 1).val / 128, by have := idx2_lt1 (ix2 r (chan g l) : SO.Idx); omega⟩ : Fin 32) = g :=
    Fin.ext (by show (128 * g.val + l.val) / 128 = g.val; have := l.isLt; omega)
  have hl : (⟨((ix2 r (chan g l) : SO.Idx) 1).val % 128, Nat.mod_lt _ (by decide)⟩ : Fin 128) = l :=
    Fin.ext (by show (128 * g.val + l.val) % 128 = l.val; have := l.isLt; omega)
  rw [hg, hl]

end Cert.Spec

end
-- ==== Proof.KernelValue.lean ====
/-
  The idealised kernel's result array is the specification `Spec.G` of its three argument arrays.

  The grid is 4 × 32 × 4: point `t` is row tile `i = t / 128`, channel group `j = t / 4 % 32`, contraction step
  `k = t % 4`.  Tile `(i, j)` of the 8192 × 4096 result — rows `2048·i …`, channels `128·j …`, so exactly one
  normalisation group — is written back once, after its step `k = 3`.  Until then a 2048 × 128 accumulator carries
  the partial products: zero plus the product of the `k = 0` blocks, then one more block product per step.  After step
  3 it holds, at `(p, q)`, the four 512-term sums, which together are the full 2048-term dot product of row
  `2048·i + p` of `x` with row `128·j + q` of `w` (addition of extended reals is commutative and associative, so the
  grouping does not matter).  The stored tile is the accumulator plus the bias row, normalised over its 128 channels
  with a product by the reciprocal square root — equal to the specification's quotient by the square root because the
  radicand is strictly positive (`RowNorm.clipMul_eq_clipDiv`) — and clipped.  The 128 flushing points' tiles cover the
  array, so it ends holding `G`.
-/
import proofs.«102504_j73315091744897_1_alg».proof.Proof.Gen.KernelIdeal.Value
import proofs.«102504_j73315091744897_1_alg».proof.Proof.Pieces
import proofs.«102504_j73315091744897_1_alg».proof.Proof.Payload
import proofs.«102504_j73315091744897_1_alg».proof.Proof.Spec
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.KValue

open Cert.KernelIdeal Cert.KernelIdeal.Gen Cert.KernelIdeal.Value Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The grid point `t` of the 4 × 32 × 4 grid is row tile `t / 128`, channel group `t / 4 % 32`, contraction step `t % 4`;
    each window's block index at `t`, decided over the 512 points. -/
theorem idx_facts : ∀ t : Fin cfg0.N,
    win0_0.index t (0 : Fin 2) = t.val / 128 ∧ win0_0.index t (1 : Fin 2) = t.val % 4
    ∧ win0_1.index t (0 : Fin 2) = t.val / 4 % 32 ∧ win0_1.index t (1 : Fin 2) = t.val % 4
    ∧ win0_2.index t (0 : Fin 2) = 0 ∧ win0_2.index t (1 : Fin 2) = t.val / 4 % 32
    ∧ win0_3.index t (0 : Fin 2) = t.val / 128 ∧ win0_3.index t (1 : Fin 2) = t.val / 4 % 32 :=
  (by decide +kernel : ∀ t : Fin grid0.N, _)

theorem N_eq : cfg0.N = 512 := N_0

/-- The three input blocks at a point, at their literal tile types. -/
abbrev xblk (c : Dev nD) (t : Fin cfg0.N) : Vec Ideal S2048x512 .f32 := iblk m c 0 t
abbrev wblk (c : Dev nD) (t : Fin cfg0.N) : Vec Ideal S128x512 .f32 := iblk m c 1 t
abbrev bblk (c : Dev nD) (t : Fin cfg0.N) : Vec Ideal S1x128 .f32 := iblk m c 2 t

/-- The three argument arrays on core `c`. -/
abbrev xarr (c : Dev nD) : Cert.Spec.SX.Idx → EReal := m ((c : Thread nD τ).loc main_arg0)
abbrev warr (c : Dev nD) : Cert.Spec.SW.Idx → EReal := m ((c : Thread nD τ).loc main_arg1)
abbrev barr (c : Dev nD) : Cert.Spec.SB.Idx → EReal := m ((c : Thread nD τ).loc main_arg2)

/-- The `x` block at a point is rows `2048·(t/128) …`, columns `512·(t%4) …` of `x`. -/
theorem xblk_apply (c : Dev nD) (t : Fin cfg0.N) (p : Fin 2048) (k : Fin 512) (r : Fin 8192) (kk : Fin 2048)
    (hr : r.val = 2048 * (t.val / 128) + p.val) (hk : kk.val = 512 * (t.val % 4) + k.val) :
    xblk m c t (ix2 p k) = xarr m c (ix2 r kk) := by
  obtain ⟨e0, e1, -⟩ := idx_facts t
  unfold xblk iblk
  rw [View.read_apply]
  show V m c main_arg0 _ = _
  rw [V_main_arg0]
  refine congrArg (m ((c : Thread nD τ).loc main_arg0)) (funext fun a => Fin.ext ?_)
  match a with
  | ⟨0, _⟩ => show win0_0.index t (0 : Fin 2) * 2048 + 1 * p.val = r.val; omega
  | ⟨1, _⟩ => show win0_0.index t (1 : Fin 2) * 512 + 1 * k.val = kk.val; omega

/-- The `w` block at a point is rows `128·(t/4%32) …`, columns `512·(t%4) …` of `w`. -/
theorem wblk_apply (c : Dev nD) (t : Fin cfg0.N) (q : Fin 128) (k : Fin 512) (o : Fin 4096) (kk : Fin 2048)
    (ho : o.val = 128 * (t.val / 4 % 32) + q.val) (hk : kk.val = 512 * (t.val % 4) + k.val) :
    wblk m c t (ix2 q k) = warr m c (ix2 o kk) := by
  obtain ⟨-, -, e0, e1, -⟩ := idx_facts t
  unfold wblk iblk
  rw [View.read_apply]
  show V m c main_arg1 _ = _
  rw [V_main_arg1]
  refine congrArg (m ((c : Thread nD τ).loc main_arg1)) (funext fun a => Fin.ext ?_)
  match a with
  | ⟨0, _⟩ => show win0_1.index t (0 : Fin 2) * 128 + 1 * q.val = o.val; omega
  | ⟨1, _⟩ => show win0_1.index t (1 : Fin 2) * 512 + 1 * k.val = kk.val; omega

/-- The bias as the region finds it: the length-4096 vector as one row. -/
theorem V_bias (c : Dev nD) :
    (V m c main_v0 : S1x4096.Idx → EReal) = shapeCast S1x4096 (m ((c : Thread nD τ).loc main_arg2)) shapeCasts_S4096_S1x4096 := by
  dsimp only [Gen.V, Gen.hostOps0]; after_results; rfl

/-- The bias block at a point is entries `128·(t/4%32) …` of the bias. -/
theorem bblk_apply (c : Dev nD) (t : Fin cfg0.N) (q : Fin 128) (o : Fin 4096)
    (ho : o.val = 128 * (t.val / 4 % 32) + q.val) :
    bblk m c t (ix2 (0 : Fin 1) q) = barr m c (ix1 o) := by
  obtain ⟨-, -, -, -, e0, e1, -⟩ := idx_facts t
  unfold bblk iblk
  rw [View.read_apply]
  show V m c main_v0 _ = _
  rw [V_bias]
  refine (shapeCast_apply _ shapeCasts_S4096_S1x4096 _ (ix1 o) ?_)
  rw [Shape.rowMajor_val_one, Shape.rowMajor_val_two]
  show o.val = (win0_2.index t (0 : Fin 2) * 1 + 1 * 0) * 4096 + (win0_2.index t (1 : Fin 2) * 128 + 1 * q.val)
  omega

/-! ### The contraction axis in four blocks of 512 -/

/-- A sum over the 2048 columns is the sum, over the four contraction steps, of the sums over each step's 512 columns. -/
theorem sum_four_blocks (P : Nat → EReal) (f : Fin 2048 → EReal)
    (hP : ∀ s : Fin 4, P s.val = ∑ kk : Fin 512, f ⟨512 * s.val + kk.val, by have := s.isLt; have := kk.isLt; omega⟩) :
    ∑ s ∈ Finset.range 4, P s = ∑ k : Fin 2048, f k := by
  rw [Finset.sum_range (fun s => P s)]
  simp only [hP]
  rw [← Fintype.sum_prod_type']
  refine Fintype.sum_equiv (finProdFinEquiv (m := 4) (n := 512)) _ _ fun x => congrArg f (Fin.ext ?_)
  obtain ⟨s, kk⟩ := x
  show 512 * s.val + kk.val = kk.val + 512 * s.val
  omega

/-! ### The accumulator: the library's fold, unrolled at an entry -/

/-- Step `n`'s partial product at entry `i` of the tile: the 512-term dot product of the step's `x` and `w` blocks
    (zero past the grid, where it is never used). -/
def part (c : Dev nD) (n : Nat) (i : S2048x128.Idx) : EReal :=
  if h : n < cfg0.N then
    ∑ k : Fin 512, xblk m c ⟨n, h⟩ (ix2 (⟨(i 0).val, idx2_lt0 i⟩ : Fin 2048) k) * wblk m c ⟨n, h⟩ (ix2 (⟨(i 1).val, idx2_lt1 i⟩ : Fin 128) k)
  else 0

theorem part_apply (c : Dev nD) (n : Nat) (h : n < cfg0.N) (p : Fin 2048) (q : Fin 128) :
    part m c n (ix2 p q) = ∑ k : Fin 512, xblk m c ⟨n, h⟩ (ix2 p k) * wblk m c ⟨n, h⟩ (ix2 q k) := by
  unfold part
  rw [dif_pos h]

/-- After the last contraction step of a tile (`t % 4 = 3`) the accumulator holds the sum of the tile's four partial
    products: reset to zero plus the first at `4·(t/4)`, one more added at each of the next three points. -/
theorem acc_last (c : Dev nD) (t : Fin cfg0.N) (h3 : t.val % 4 = 3) (i : S2048x128.Idx) :
    (outsAt0 m c t.val t.isLt).2 i = ∑ s ∈ Finset.range 4, part m c (4 * (t.val / 4) + s) i := by
  have hN : cfg0.N = 512 := N_0
  rw [soutsAt0_0_eq m c t]
  have key := Pipeline.accAt_add_apply (ι := S2048x128.Idx) (β := EReal)
    (fun n h => scAt0_0 m c n h (VS0_0.read (Elt Ideal) VS0_0.junk)) (scAt0_0 m c) (fun _ => 0) (part m c)
    (4 * (t.val / 4)) 3
    (fun h i => by
      obtain ⟨p, q, rfl⟩ : ∃ (p : Fin 2048) (q : Fin 128), i = ix2 p q := ⟨i 0, i 1, eq_ix2 i⟩
      show scAt0_0 m c (4 * (t.val / 4)) h _ (ix2 p q) = 0 + part m c (4 * (t.val / 4)) (ix2 p q)
      unfold scAt0_0
      rw [dif_pos (by omega : 4 * (t.val / 4) % 4 = 0), dif_neg (by omega : ¬4 * (t.val / 4) % 4 = 3), Cert.KernelIdeal.Pieces.sout_A]
      exact (Cert.KernelIdeal.Payload.pay2_apply (xblk m c ⟨4 * (t.val / 4), h⟩) (wblk m c ⟨4 * (t.val / 4), h⟩) (k0_pay1 (F := Ideal)) p q).trans
        (by rw [Cert.KernelIdeal.Payload.pay1_apply, part_apply m c _ h]))
    (fun n h acc i hb he => by
      obtain ⟨p, q, rfl⟩ : ∃ (p : Fin 2048) (q : Fin 128), i = ix2 p q := ⟨i 0, i 1, eq_ix2 i⟩
      show scAt0_0 m c n h acc (ix2 p q) = acc (ix2 p q) + part m c n (ix2 p q)
      unfold scAt0_0
      rw [dif_neg (by omega : ¬n % 4 = 0)]
      by_cases h1 : n % 4 = 3
      · rw [dif_pos h1, Cert.KernelIdeal.Pieces.sout_C]
        exact (Cert.KernelIdeal.Payload.pay2_apply (xblk m c ⟨n, h⟩) (wblk m c ⟨n, h⟩) acc p q).trans (by rw [part_apply m c _ h])
      · rw [dif_neg h1, Cert.KernelIdeal.Pieces.sout_B]
        exact (Cert.KernelIdeal.Payload.pay2_apply (xblk m c ⟨n, h⟩) (wblk m c ⟨n, h⟩) acc p q).trans (by rw [part_apply m c _ h]))
    (t.val % 4) (by omega) (by have := t.isLt; omega) i
  rw [key, h3, zero_add]

/-- At the last step the output tile is the normalisation of the finished accumulator with the bias block. -/
theorem outs_fst (c : Dev nD) (t : Fin cfg0.N) (h3 : t.val % 4 = 3) :
    (outsAt0 m c t.val t.isLt).1 = k0_pay3 ((outsAt0 m c t.val t.isLt).2) (bblk m c t) := by
  have h0 : ¬t.val % 4 = 0 := by omega
  rw [outsAt0_C m c t h0 h3]
  dsimp only
  rw [Cert.KernelIdeal.Pieces.out_C, Cert.KernelIdeal.Pieces.sout_C]

/-! ### From the flushed tiles to the whole result array -/

/-- WHAT A FLUSHING POINT WRITES BACK is its tile of `G`: at `t = (i, j, 3)` the tile's entry `(p, q)` is row
    `2048·i + p`, lane `q` of group `j`; the accumulator there is the full 2048-term dot product (four blocks of 512),
    and the kernel's product with the reciprocal square root is the reference's quotient by the square root. -/
theorem flushed_eq (c : Dev nD) (t : Fin cfg0.N) (hf : (cfg0.win 3).flush t = true) :
    (dats m 0 c).flushed 3 t
      = ((cfg0.win 3).blk t).view.read (Elt Ideal) (Cert.Spec.G (xarr m c) (warr m c) (barr m c)) := by
  have hN : cfg0.N = 512 := N_0
  have ht := t.isLt
  have h3 : t.val % 4 = 3 := (flush0_3 t).mp hf
  rw [flushed3, outs_fst m c t h3]
  funext j
  obtain ⟨p, q, rfl⟩ : ∃ (p : Fin 2048) (q : Fin 128), j = ix2 p q := ⟨j 0, j 1, eq_ix2 j⟩
  obtain ⟨-, -, -, -, -, -, e0, e1⟩ := idx_facts t
  have hp := p.isLt
  have hq := q.isLt
  let r : Fin 8192 := ⟨2048 * (t.val / 128) + p.val, by omega⟩
  let g : Fin 32 := ⟨t.val / 4 % 32, Nat.mod_lt _ (by decide)⟩
  have hemb : ((cfg0.win 3).blk t).view.emb (ix2 p q) = ix2 r (Cert.Spec.chan g q) := funext fun a => Fin.ext (by
    match a with
    | ⟨0, _⟩ => show win0_3.index t (0 : Fin 2) * 2048 + 1 * p.val = 2048 * (t.val / 128) + p.val; omega
    | ⟨1, _⟩ => show win0_3.index t (1 : Fin 2) * 128 + 1 * q.val = 128 * (t.val / 4 % 32) + q.val; omega)
  show k0_pay3 ((outsAt0 m c t.val t.isLt).2) (bblk m c t) (ix2 p q)
    = Cert.Spec.G (xarr m c) (warr m c) (barr m c) (((cfg0.win 3).blk t).view.emb (ix2 p q))
  rw [hemb, Cert.Spec.G_apply, Cert.KernelIdeal.Payload.pay3_apply, Cert.RowNorm.clipMul_eq_clipDiv]
  unfold Cert.Spec.out3
  refine congrArg (fun y => Cert.RowNorm.clipDiv y q) (funext fun l => ?_)
  have hl := l.isLt
  rw [acc_last m c t h3, bblk_apply m c t l (Cert.Spec.chan g l) rfl]
  unfold Cert.Spec.lin
  refine congrArg (· + barr m c (ix1 (Cert.Spec.chan g l))) ?_
  refine sum_four_blocks _ (fun k => xarr m c (ix2 r k) * warr m c (ix2 (Cert.Spec.chan g l) k)) fun s => ?_
  have hs := s.isLt
  have hn : 4 * (t.val / 4) + s.val < cfg0.N := by omega
  rw [part_apply m c _ hn]
  refine Finset.sum_congr rfl fun kk _ => ?_
  have hkk := kk.isLt
  rw [xblk_apply m c ⟨4 * (t.val / 4) + s.val, hn⟩ p kk r ⟨512 * s.val + kk.val, by omega⟩
      (by show 2048 * (t.val / 128) + p.val = 2048 * ((4 * (t.val / 4) + s.val) / 128) + p.val; omega)
      (by show 512 * s.val + kk.val = 512 * ((4 * (t.val / 4) + s.val) % 4) + kk.val; omega),
    wblk_apply m c ⟨4 * (t.val / 4) + s.val, hn⟩ l kk (Cert.Spec.chan g l) ⟨512 * s.val + kk.val, by omega⟩
      (by show 128 * (t.val / 4 % 32) + l.val = 128 * ((4 * (t.val / 4) + s.val) / 4 % 32) + l.val; omega)
      (by show 512 * s.val + kk.val = 512 * ((4 * (t.val / 4) + s.val) % 4) + kk.val; omega)]

/-- An entry of the result array is in point `t`'s tile iff each coordinate is in the tile's range on its axis. -/
theorem mem_blk (t : Fin cfg0.N) (i : S8192x4096.Idx) :
    i ∈ ((cfg0.win 3).blk t).view.set ↔ ∀ a : Fin 2, win0_3.index t a * S2048x128.size a ≤ (i a).val ∧ (i a).val < win0_3.index t a * S2048x128.size a + S2048x128.size a := by
  show i ∈ ((View.whole main_v1).slice (win0_3.rect t)).set ↔ _
  rw [View.set_slice_whole, Rect.mem_set_unit]
  exact Iff.rfl

/-- Every entry `(r, o)` lies in the tile of the flushing point `(r / 2048, o / 128, 3)`. -/
theorem cover (i : S8192x4096.Idx) :
    ∃ t : Fin cfg0.N, (cfg0.win 3).flush t = true ∧ i ∈ ((cfg0.win 3).blk t).view.set := by
  have hN : cfg0.N = 512 := N_0
  have hi0 : (i 0).val < 8192 := idx2_lt0 i
  have hi1 : (i 1).val < 4096 := idx2_lt1 i
  let t : Fin cfg0.N := ⟨((i 0).val / 2048) * 128 + ((i 1).val / 128) * 4 + 3, by omega⟩
  have htv : t.val = ((i 0).val / 2048) * 128 + ((i 1).val / 128) * 4 + 3 := rfl
  obtain ⟨-, -, -, -, -, -, e0, e1⟩ := idx_facts t
  refine ⟨t, (flush0_3 t).mpr (by omega), ?_⟩
  rw [mem_blk]
  intro a
  match a with
  | ⟨0, _⟩ => show win0_3.index t (0 : Fin 2) * 2048 ≤ (i 0).val ∧ (i 0).val < win0_3.index t (0 : Fin 2) * 2048 + 2048; omega
  | ⟨1, _⟩ => show win0_3.index t (1 : Fin 2) * 128 ≤ (i 1).val ∧ (i 1).val < win0_3.index t (1 : Fin 2) * 128 + 128; omega

/-- THE RESULT ARRAY after the run is `G` of the three argument arrays. -/
theorem final (c : Dev nD) :
    (dats m 0 c).arrAt 3 cfg0.N = Cert.Spec.G (xarr m c) (warr m c) (barr m c) :=
  (dats m 0 c).arrAt_eq_of_cover 3 (Cert.Spec.G (xarr m c) (warr m c) (barr m c)) (fun t hf => flushed_eq m c t hf) cover

/-- The kernel's run, read: the result array at `G` of the arguments, the arguments unchanged. -/
theorem run : θ_run defs (onTc (τ := τ) (main (F := Ideal))) ⟨m, fun _ => 0, ρ⟩ fun r => ∀ c : Dev nD,
      r.2.mem ((c : Thread nD τ).loc main_v1) = Cert.Spec.G (xarr m c) (warr m c) (barr m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.KValue

end
-- ==== Proof.RefValue.lean ====
/-
  The reference program's result, read one operation at a time, is the specification `Spec.G`.

  The reference forms the whole 8192 × 4096 linear output (one `dot_general` over the 2048 columns, plus the bias
  broadcast along the rows), reshapes it to 8192 × 32 × 128 — entry `(r, g, l)` is channel `128·g + l` of row `r` —,
  takes the mean and the variance over the last axis (a host sum is its zero initial value plus the sum over the
  axis), divides the deviation by the square root of the variance plus `ε`, clips, and reshapes back.  Each stage is
  read at coordinates `(r, g, l)`; a column kept with a unit axis reads its one entry.
-/
import proofs.«102504_j73315091744897_1_alg».proof.Proof.Gen.ReferenceIdeal.Read
import proofs.«102504_j73315091744897_1_alg».proof.Proof.Spec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open Cert.Spec (chan lin out3 G)

variable (x0 : (⟨S8192x2048, .f32⟩ : BufTy).Contents (Elt Ideal)) (x1 : (⟨S4096x2048, .f32⟩ : BufTy).Contents (Elt Ideal))
  (x2 : (⟨S4096, .f32⟩ : BufTy).Contents (Elt Ideal))

/-- The group's 128 linear outputs at row `r`, group `g`. -/
abbrev y (r : Fin 8192) (g : Fin 32) : Fin 128 → EReal := fun l => lin x0 x1 x2 r (chan g l)

/-! ### Index equations: the reshapes and broadcasts at coordinates -/

theorem e_v4 (r : Fin 8192) (g : Fin 32) (l : Fin 128) : idx_main_v4 (ix3 r g l) = ix2 r (chan g l) :=
  funext fun a => Fin.ext (by
    have := r.isLt; have := g.isLt; have := l.isLt
    match a with
    | ⟨0, _⟩ => show ((r.val * 32 + g.val) * 128 + l.val) / 4096 = r.val; omega
    | ⟨1, _⟩ => show ((r.val * 32 + g.val) * 128 + l.val) % 4096 = 128 * g.val + l.val; omega)
theorem e_l0 (r : Fin 8192) (o : Fin 4096) (k : Fin 2048) : lidx_main_v0 (ix2 r o) k = ix2 r k :=
  funext fun a => by match a with | ⟨0, _⟩ => rfl | ⟨1, _⟩ => rfl
theorem e_r0 (r : Fin 8192) (o : Fin 4096) (k : Fin 2048) : ridx_main_v0 (ix2 r o) k = ix2 o k :=
  funext fun a => by match a with | ⟨0, _⟩ => rfl | ⟨1, _⟩ => rfl
theorem e_v21 (r : Fin 8192) (o : Fin 4096) : idx_main_v1 (idx_main_v2 (ix2 r o)) = ix1 o :=
  funext fun a => by match a with | ⟨0, _⟩ => rfl
theorem e_v5 (r : Fin 8192) (g : Fin 32) (k : Fin 128) : idx_main_v5 (ix2 r g) k = ix3 r g k :=
  funext fun a => by match a with | ⟨0, _⟩ => rfl | ⟨1, _⟩ => rfl | ⟨2, _⟩ => rfl
theorem e_v12 (r : Fin 8192) (g : Fin 32) (k : Fin 128) : idx_main_v12 (ix2 r g) k = ix3 r g k :=
  funext fun a => by match a with | ⟨0, _⟩ => rfl | ⟨1, _⟩ => rfl | ⟨2, _⟩ => rfl
theorem e_v6 (r : Fin 8192) (g : Fin 32) (z : Fin 1) : idx_main_v6 (ix3 r g z) = ix2 r g :=
  funext fun a => by match a with | ⟨0, _⟩ => rfl | ⟨1, _⟩ => rfl
theorem e_v13 (r : Fin 8192) (g : Fin 32) (z : Fin 1) : idx_main_v13 (ix3 r g z) = ix2 r g :=
  funext fun a => by match a with | ⟨0, _⟩ => rfl | ⟨1, _⟩ => rfl
theorem e_v9 (r : Fin 8192) (g : Fin 32) (l : Fin 128) : idx_main_v9 (ix3 r g l) = ix3 r g (0 : Fin 1) :=
  funext fun a => by match a with | ⟨0, _⟩ => rfl | ⟨1, _⟩ => rfl | ⟨2, _⟩ => rfl
theorem e_v16 (r : Fin 8192) (g : Fin 32) (l : Fin 128) : idx_main_v16 (ix3 r g l) = ix3 r g (0 : Fin 1) :=
  funext fun a => by match a with | ⟨0, _⟩ => rfl | ⟨1, _⟩ => rfl | ⟨2, _⟩ => rfl
theorem e_v21b (r : Fin 8192) (g : Fin 32) (l : Fin 128) : idx_main_v21 (ix3 r g l) = ix3 r g (0 : Fin 1) :=
  funext fun a => by match a with | ⟨0, _⟩ => rfl | ⟨1, _⟩ => rfl | ⟨2, _⟩ => rfl
theorem e_v24 (r : Fin 8192) (g : Fin 32) (l : Fin 128) : idx_main_v24 (ix2 r (chan g l)) = ix3 r g l :=
  funext fun a => Fin.ext (by
    have := r.isLt; have := g.isLt; have := l.isLt
    match a with
    | ⟨0, _⟩ => show (r.val * 4096 + (128 * g.val + l.val)) / 4096 = r.val; omega
    | ⟨1, _⟩ => show (r.val * 4096 + (128 * g.val + l.val)) / 128 % 32 = g.val; omega
    | ⟨2, _⟩ => show (r.val * 4096 + (128 * g.val + l.val)) % 128 = l.val; omega)

/-! ### The stages at coordinates -/

/-- The reshaped linear output at `(r, g, l)` is the linear layer at channel `128·g + l`. -/
theorem v4_at (r : Fin 8192) (g : Fin 32) (l : Fin 128) :
    val_main_v4 (F := Ideal) x0 x1 x2 (ix3 r g l) = y x0 x1 x2 r g l := by
  rw [val_main_v4_apply, e_v4, val_main_v3_apply, val_main_v0_apply, val_main_v2_apply, val_main_v1_apply, e_v21]
  simp only [e_l0, e_r0]
  rfl

/-- The group sum. -/
theorem v5_at (r : Fin 8192) (g : Fin 32) :
    val_main_v5 (F := Ideal) x0 x1 x2 (ix2 r g) = ∑ l, y x0 x1 x2 r g l := by
  rw [val_main_v5_apply, val_main_cst_apply]
  simp only [e_v5, v4_at]
  show Ideal.ofBits .f32 0x00000000#32 + _ = _
  rw [Ideal.ofBits_zero_f32, zero_add]

/-- The group mean, kept as a column. -/
theorem v8_at (r : Fin 8192) (g : Fin 32) :
    val_main_v8 (F := Ideal) x0 x1 x2 (ix3 r g (0 : Fin 1)) = Cert.RowNorm.mean (y x0 x1 x2 r g) := by
  rw [val_main_v8_apply, val_main_v6_apply, e_v6, v5_at, val_main_v7_apply, val_main_cst_0_apply]
  rfl

/-- The deviation from the group mean. -/
theorem v10_at (r : Fin 8192) (g : Fin 32) (l : Fin 128) :
    val_main_v10 (F := Ideal) x0 x1 x2 (ix3 r g l) = y x0 x1 x2 r g l - Cert.RowNorm.mean (y x0 x1 x2 r g) := by
  rw [val_main_v10_apply, v4_at, val_main_v9_apply, e_v9, v8_at]
  rfl

theorem v17_at (r : Fin 8192) (g : Fin 32) (l : Fin 128) :
    val_main_v17 (F := Ideal) x0 x1 x2 (ix3 r g l) = y x0 x1 x2 r g l - Cert.RowNorm.mean (y x0 x1 x2 r g) := by
  rw [val_main_v17_apply, v4_at, val_main_v16_apply, e_v16, v8_at]
  rfl

/-- The group variance, kept as a column. -/
theorem v15_at (r : Fin 8192) (g : Fin 32) :
    val_main_v15 (F := Ideal) x0 x1 x2 (ix3 r g (0 : Fin 1)) = Cert.RowNorm.var (y x0 x1 x2 r g) := by
  rw [val_main_v15_apply, val_main_v13_apply, e_v13, val_main_v12_apply, val_main_cst_1_apply, val_main_v14_apply,
    val_main_cst_2_apply]
  simp only [e_v12, val_main_v11_apply, v10_at]
  show Ideal.div (Ideal.ofBits .f32 0x00000000#32 + _) _ = _
  rw [Ideal.ofBits_zero_f32, zero_add]
  rfl

/-- The normalised and clipped value at `(r, g, l)`. -/
theorem v23_at (r : Fin 8192) (g : Fin 32) (l : Fin 128) :
    val_main_v23 (F := Ideal) x0 x1 x2 (ix3 r g l) = out3 x0 x1 x2 r g l := by
  rw [val_main_v23_apply, val_main_call0_v4_apply, val_main_call0_v3_apply, val_main_cst_5_apply,
    val_main_call0_v2_apply, val_main_call0_v1_apply, val_main_call0_v0_apply, val_main_cst_4_apply,
    val_main_v22_apply, v17_at, val_main_v21_apply, e_v21b, val_main_v20_apply, val_main_v19_apply, v15_at,
    val_main_v18_apply, val_main_cst_3_apply]
  rfl

/-- The reference's result array is `G` of its three arguments. -/
theorem ref_eq : val_main_v24 (F := Ideal) x0 x1 x2 = G x0 x1 x2 := by
  funext i
  have hi0 := idx2_lt0 i
  have hi1 := idx2_lt1 i
  obtain ⟨r, g, l, rfl⟩ : ∃ (r : Fin 8192) (g : Fin 32) (l : Fin 128), i = ix2 r (chan g l) :=
    ⟨⟨(i 0).val, hi0⟩, ⟨(i 1).val / 128, by omega⟩, ⟨(i 1).val % 128, Nat.mod_lt _ (by decide)⟩, by
      funext a
      match a with
      | ⟨0, _⟩ => rfl
      | ⟨1, _⟩ => exact Fin.ext (by show (i 1).val = 128 * ((i 1).val / 128) + (i 1).val % 128; omega)⟩
  rw [val_main_v24_apply, e_v24, v23_at, Cert.Spec.G_apply]

end Cert.ReferenceIdeal.RefValue

end
-- ==== Proof.lean ====
/-
  The certificate of a fused linear layer + group normalisation + clip.

  Both programs take `x` (8192 × 2048), `w` (4096 × 2048) and `b` (4096) and return the 8192 × 4096 array whose entry
  `(r, o)` is: with `y c = (∑ k, x[r,k] · w[c,k]) + b[c]` over the 128 channels `c` of `o`'s group (`128·(o/128) …`),
  `clip((y o - mean y) / sqrt(var y + ε), -1, 1)` (`Spec.G`).

    * The reference computes exactly this, one host operation at a time (`RefValue.ref_eq`).
    * The kernel tiles the result 2048 × 128 (one group per tile), accumulates the dot products over four blocks of
      512 columns in a carried scratch, and at the last block adds the bias, normalises with a PRODUCT by the reciprocal
      square root and clips (`KValue.run`).  On the extended reals the blocked sum is the whole sum, and the product
      by `rsqrt v` is the quotient by `sqrt v` because `v = var + ε > 0` whatever the inputs: a sum of squares is never
      negative and `ε` is a positive real (`RowNorm`).  No finiteness of the inputs is used.
    * The two frames of the kernel are its generated frame proofs; the reference's frame is its generated run with the
      result dropped; the idealisation rewrote nothing, so `preserves` is `True`.
-/
import proofs.«102504_j73315091744897_1_alg».proof.Defs
import proofs.«102504_j73315091744897_1_alg».proof.Proof.Gen.Kernel
import proofs.«102504_j73315091744897_1_alg».proof.Proof.Gen.Kernel.Skeleton
import proofs.«102504_j73315091744897_1_alg».proof.Proof.Gen.Kernel.Launch
import proofs.«102504_j73315091744897_1_alg».proof.Proof.Gen.Kernel.Points
import proofs.«102504_j73315091744897_1_alg».proof.Proof.Gen.Kernel.Frame
import proofs.«102504_j73315091744897_1_alg».proof.Proof.Gen.KernelIdeal
import proofs.«102504_j73315091744897_1_alg».proof.Proof.Gen.KernelIdeal.Skeleton
import proofs.«102504_j73315091744897_1_alg».proof.Proof.Gen.KernelIdeal.Launch
import proofs.«102504_j73315091744897_1_alg».proof.Proof.Gen.KernelIdeal.Points
import proofs.«102504_j73315091744897_1_alg».proof.Proof.Gen.KernelIdeal.Frame
import proofs.«102504_j73315091744897_1_alg».proof.Proof.Gen.ReferenceIdeal
import proofs.«102504_j73315091744897_1_alg».proof.Proof.Gen.Pre_finite_inputs
import proofs.«102504_j73315091744897_1_alg».proof.Proof.Gen.KernelIdeal.Value
import proofs.«102504_j73315091744897_1_alg».proof.Proof.Gen.ReferenceIdeal.Run
import proofs.«102504_j73315091744897_1_alg».proof.Proof.Gen.ReferenceIdeal.Read
import Idealize.ShloMosaic.Adequacy
import Idealize.ShloMosaic.Init

import proofs.«102504_j73315091744897_1_alg».proof.Proof.KernelValue
import proofs.«102504_j73315091744897_1_alg».proof.Proof.RefValue

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at `Spec.G` of argument arrays that agree. -/
theorem algebraic : Cert.algebraic_KernelIdeal_ReferenceIdeal := by
  intro m ρ m' ρ' _ hagree
  refine ⟨fun c => Cert.Spec.G (Cert.KernelIdeal.KValue.xarr m c) (Cert.KernelIdeal.KValue.warr m c) (Cert.KernelIdeal.KValue.barr m c),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, Cert.ReferenceIdeal.RefValue.ref_eq, (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
